-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x256 : Shape := ⟨3, ![64, 1024, 256]⟩
abbrev S64x1024x512 : Shape := ⟨3, ![64, 1024, 512]⟩
abbrev S64x1024 : Shape := ⟨2, ![64, 1024]⟩
abbrev S512x256 : Shape := ⟨2, ![512, 256]⟩
abbrev S256x256 : Shape := ⟨2, ![256, 256]⟩
abbrev S_ : Shape := ⟨0, ![]⟩

class Facts : Prop where
  bcast_S_S64x1024x256 : S_.BroadcastsInDim S64x1024x256 (![] : Fin 0 → Fin S64x1024x256.rank)
  reducesTo_S64x1024x256_S_d0_1_2 : S64x1024x256.ReducesTo [0, 1, 2] S_
  h_S_ : 0 < S_.numel
  bcast_S_S64x1024x512 : S_.BroadcastsInDim S64x1024x512 (![] : Fin 0 → Fin S64x1024x512.rank)
  reducesTo_S64x1024x512_S_d0_1_2 : S64x1024x512.ReducesTo [0, 1, 2] S_
  bcast_S_S64x1024 : S_.BroadcastsInDim S64x1024 (![] : Fin 0 → Fin S64x1024.rank)
  reducesTo_S64x1024_S_d0_1 : S64x1024.ReducesTo [0, 1] S_
  bcast_S_S512x256 : S_.BroadcastsInDim S512x256 (![] : Fin 0 → Fin S512x256.rank)
  reducesTo_S512x256_S_d0_1 : S512x256.ReducesTo [0, 1] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg7 : FVec F S512x256 .f32) (main_arg8 : FVec F S256x256 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  main_v43

def fn_part1 {F : FTy → Type} [FloatOps F] (main_arg4 : FVec F S256x256 .f32) (main_arg5 : FVec F S512x256 .f32) (main_arg6 : FVec F S256x256 .f32) (main_arg7 : FVec F S512x256 .f32) (main_arg8 : FVec F S256x256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_v33

def fn {F : FTy → Type} [FloatOps F] (main_arg0 : FVec F S64x1024x256 .f32) (main_arg1 : FVec F S64x1024x512 .f32) (main_arg2 : FVec F S64x1024 .f32) (main_arg3 : FVec F S512x256 .f32) (main_arg4 : FVec F S256x256 .f32) (main_arg5 : FVec F S512x256 .f32) (main_arg6 : FVec F S256x256 .f32) (main_arg7 : FVec F S512x256 .f32) (main_arg8 : FVec F S256x256 .f32) : IVec S_ 1 :=
  let main_v0 : FVec F S64x1024x256 .f32 := Host.absf main_arg0
  let main_cst : FVec F S_ .f32 := constant S_ .f32 0x7F800000#32
  let main_v1 : FVec F S64x1024x256 .f32 := broadcastInDim S64x1024x256 ![] bcast_S_S64x1024x256 main_cst
  let main_v2 : IVec S64x1024x256 1 := cmpf .olt main_v0 main_v1
  let main_c : IVec S_ 1 := constantI S_ 1 1#1
  let main_v3 : IVec S_ 1 := (fun x v => Host.reduce IntOp.andi x v reducesTo_S64x1024x256_S_d0_1_2 h_S_) main_v2 main_c
  let main_v4 : FVec F S64x1024x512 .f32 := Host.absf main_arg1
  let main_cst_0 : FVec F S_ .f32 := constant S_ .f32 0x7F800000#32
  let main_v5 : FVec F S64x1024x512 .f32 := broadcastInDim S64x1024x512 ![] bcast_S_S64x1024x512 main_cst_0
  let main_v6 : IVec S64x1024x512 1 := cmpf .olt main_v4 main_v5
  let main_c_1 : IVec S_ 1 := constantI S_ 1 1#1
  let main_v7 : IVec S_ 1 := (fun x v => Host.reduce IntOp.andi x v reducesTo_S64x1024x512_S_d0_1_2 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_v13 main_v16
-- ==== Kernel.lean ====
abbrev S64x1024x256 : Shape := ⟨3, ![64, 1024, 256]⟩
abbrev S64x1024x512 : Shape := ⟨3, ![64, 1024, 512]⟩
abbrev S64x1024 : Shape := ⟨2, ![64, 1024]⟩
abbrev S512x256 : Shape := ⟨2, ![512, 256]⟩
abbrev S256x256 : Shape := ⟨2, ![256, 256]⟩
abbrev S65536x256 : Shape := ⟨2, ![65536, 256]⟩
abbrev S65536x512 : Shape := ⟨2, ![65536, 512]⟩
abbrev S65536x1 : Shape := ⟨2, ![65536, 1]⟩
abbrev S2048x256 : Shape := ⟨2, ![2048, 256]⟩
abbrev S2048x512 : Shape := ⟨2, ![2048, 512]⟩
abbrev S2048x1 : Shape := ⟨2, ![2048, 1]⟩

abbrev nBuf : Space → Nat
  | .hbm => 20
  | .vmem => 14
  | .smem => 0
  | _ => 0

abbrev bufTy : (tb : Table) → Fin (tcTables nBuf tb) → BufTy
  | .hbm, ⟨0, _⟩ => ⟨S64x1024x256, .f32⟩
  | .hbm, ⟨1, _⟩ => ⟨S64x1024x512, .f32⟩
  | .hbm, ⟨2, _⟩ => ⟨S64x1024, .f32⟩
  | .hbm, ⟨3, _⟩ => ⟨S512x256, .f32⟩
  | .hbm, ⟨4, _⟩ => ⟨S256x256, .f32⟩
  | .hbm, ⟨5, _⟩ => ⟨S512x256, .f32⟩
  | .hbm, ⟨6, _⟩ => ⟨S256x256, .f32⟩
  | .hbm, ⟨7, _⟩ => ⟨S512x256, .f32⟩
  | .hbm, ⟨8, _⟩ => ⟨S256x256, .f32⟩
  | .hbm, ⟨9, _⟩ => ⟨S65536x256, .f32⟩
  | .hbm, ⟨10, _⟩ => ⟨S65536x512, .f32⟩
  | .hbm, ⟨11, _⟩ => ⟨S65536x1, .f32⟩
  | .hbm, ⟨12, _⟩ => ⟨S512x256, .bf16⟩
  | .hbm, ⟨13, _⟩ => ⟨S256x256, .bf16⟩
  | .hbm, ⟨14, _⟩ => ⟨S512x256, .bf16⟩
  | .hbm, ⟨15, _⟩ => ⟨S256x256, .bf16⟩
  | .hbm, ⟨16, _⟩ => ⟨S512x256, .bf16⟩
  | .hbm, ⟨17, _⟩ => ⟨S256x256, .bf16⟩
  | .hbm, ⟨18, _⟩ => ⟨S65536x256, .f32⟩
  | .hbm, ⟨19, _⟩ => ⟨S64x1024x256, .f32⟩
  | .local _ .vmem, ⟨0, _⟩ => ⟨S2048x256, .f32⟩
  | .local _ .vmem, ⟨1, _⟩ => ⟨S2048x256, .f32⟩
  | .local _ .vmem, ⟨2, _⟩ => ⟨S2048x512, .f32⟩
  | .local _ .vmem, ⟨3, _⟩ => ⟨S2048x512, .f32⟩
  | .local _ .vmem, ⟨4, _⟩ => ⟨S2048x1, .f32⟩
  | .local _ .vmem, ⟨5, _⟩ => ⟨S2048x1, .f32⟩
  | .local _ .vmem, ⟨6, _⟩ => ⟨S512x256, .bf16⟩
  | .local _ .vmem, ⟨7, _⟩ => ⟨S256x256, .bf16⟩
  | .local _ .vmem, ⟨8, _⟩ => ⟨S512x256, .bf16⟩
  | .local _ .vmem, ⟨9, _⟩ => ⟨S256x256, .bf16⟩
  | .local _ .vmem, ⟨10, _⟩ => ⟨S512x256, .bf16⟩
  | .local _ .vmem, ⟨11, _⟩ => ⟨S256x256, .bf16⟩
  | .local _ .vmem, ⟨12, _⟩ => ⟨S2048x256, .f32⟩
  | .local _ .vmem, ⟨13, _⟩ => ⟨S2048x256, .f32⟩
  | _, _ => ⟨S64x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S64x1024x256_S65536x256 : S64x1024x256.ShapeCasts S65536x256
  shapeCasts_S64x1024x512_S65536x512 : S64x1024x512.ShapeCasts S65536x512
  shapeCasts_S64x1024_S65536x1 : S64x1024.ShapeCasts S65536x1
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S2048x1_S2048x256 : S2048x1.Broadcasts S2048x256
  shapeCasts_S65536x256_S64x1024x256 : S65536x256.ShapeCasts S64x1024x256
  dot_S2048x512_S512x256_S2048x256_1_0_0_1_n_n_wf : DotDims.WF S2048x512 S512x256 S2048x256 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S65536x512.size a
  hwx0_1 : ∀ i : grid0.Coords, EltTy.bits .f32 = 32 ∨ (Rect.block (s := S65536x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S65536x1.size a
  hwx0_2 : ∀ i : grid0.Coords, EltTy.bits .f32 = 32 ∨ (Rect.block (s := S65536x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .bf16 = 32 ∨ (Rect.block (s := S512x256) S512x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .bf16 = 32 ∨ (Rect.block (s := S512x256) S512x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S65536x256.size a
  hwx0_9 : ∀ i : grid0.Coords, EltTy.bits .f32 = 32 ∨ (Rect.block (s := S65536x256) S2048x256.size (cc0_transform_9 i) (hinb0_9 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S2048x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S64x1024x256 : Shape := ⟨3, ![64, 1024, 256]⟩
abbrev S64x1024x512 : Shape := ⟨3, ![64, 1024, 512]⟩
abbrev S64x1024 : Shape := ⟨2, ![64, 1024]⟩
abbrev S512x256 : Shape := ⟨2, ![512, 256]⟩
abbrev S256x256 : Shape := ⟨2, ![256, 256]⟩
abbrev S65536x256 : Shape := ⟨2, ![65536, 256]⟩
abbrev S65536x512 : Shape := ⟨2, ![65536, 512]⟩
abbrev S_ : Shape := ⟨0, ![]⟩
abbrev S65536x1 : Shape := ⟨2, ![65536, 1]⟩

abbrev nBuf : Space → Nat
  | .hbm => 48
  | .vmem => 0
  | .smem => 0
  | _ => 0

abbrev bufTy : (tb : Table) → Fin (tcTables nBuf tb) → BufTy
  | .hbm, ⟨0, _⟩ => ⟨S64x1024x256, .f32⟩
  | .hbm, ⟨1, _⟩ => ⟨S64x1024x512, .f32⟩
  | .hbm, ⟨2, _⟩ => ⟨S64x1024, .f32⟩
  | .hbm, ⟨3, _⟩ => ⟨S512x256, .f32⟩
  | .hbm, ⟨4, _⟩ => ⟨S256x256, .f32⟩
  | .hbm, ⟨5, _⟩ => ⟨S512x256, .f32⟩
  | .hbm, ⟨6, _⟩ => ⟨S256x256, .f32⟩
  | .hbm, ⟨7, _⟩ => ⟨S512x256, .f32⟩
  | .hbm, ⟨8, _⟩ => ⟨S256x256, .f32⟩
  | .hbm, ⟨9, _⟩ => ⟨S65536x256, .f32⟩
  | .hbm, ⟨10, _⟩ => ⟨S65536x512, .f32⟩
  | .hbm, ⟨11, _⟩ => ⟨S65536x256, .f32⟩
  | .hbm, ⟨12, _⟩ => ⟨S65536x256, .f32⟩
  | .hbm, ⟨13, _⟩ => ⟨S65536x256, .f32⟩
  | .hbm, ⟨14, _⟩ => ⟨S65536x256, .f32⟩
  | .hbm, ⟨15, _⟩ => ⟨S65536x256, .f32⟩
  | .hbm, ⟨16, _⟩ => ⟨S_, .f32⟩
  | .hbm, ⟨17, _⟩ => ⟨S65536x256, .f32⟩
  | .hbm, ⟨18, _⟩ => ⟨S65536x256, .f32⟩
  | .hbm, ⟨19, _⟩ => ⟨S_, .f32⟩
  | .hbm, ⟨20, _⟩ => ⟨S65536x256, .f32⟩
  | .hbm, ⟨21, _⟩ => ⟨S65536x256, .f32⟩
  | .hbm, ⟨22, _⟩ => ⟨S65536x256, .f32⟩
  | .hbm, ⟨23, _⟩ => ⟨S65536x256, .f32⟩
  | .hbm, ⟨24, _⟩ => ⟨S65536x256, .f32⟩
  | .hbm, ⟨25, _⟩ => ⟨S65536x256, .f32⟩
  | .hbm, ⟨26, _⟩ => ⟨S65536x256, .f32⟩
  | .hbm, ⟨27, _⟩ => ⟨S_, .f32⟩
  | .hbm, ⟨28, _⟩ => ⟨S65536x256, .f32⟩
  | .hbm, ⟨29, _⟩ => ⟨S65536x256, .f32⟩
  | .hbm, ⟨30, _⟩ => ⟨S_, .f32⟩
  | .hbm, ⟨31, _⟩ => ⟨S65536x256, .f32⟩
  | .hbm, ⟨32, _⟩ => ⟨S65536x256, .f32⟩
  | .hbm, ⟨33, _⟩ => ⟨S65536x256, .f32⟩
  | .hbm, ⟨34, _⟩ => ⟨S65536x256, .f32⟩
  | .hbm, ⟨35, _⟩ => ⟨S65536x256, .f32⟩
  | .hbm, ⟨36, _⟩ => ⟨S65536x256, .f32⟩
  | .hbm, ⟨37, _⟩ => ⟨S65536x256, .f32⟩
  | .hbm, ⟨38, _⟩ => ⟨S_, .f32⟩
  | .hbm, ⟨39, _⟩ => ⟨S65536x256, .f32⟩
  | .hbm, ⟨40, _⟩ => ⟨S65536x256, .f32⟩
  | .hbm, ⟨41, _⟩ => ⟨S65536x256, .f32⟩
  | .hbm, ⟨42, _⟩ => ⟨S65536x256, .f32⟩
  | .hbm, ⟨43, _⟩ => ⟨S65536x256, .f32⟩
  | .hbm, ⟨44, _⟩ => ⟨S65536x1, .f32⟩
  | .hbm, ⟨45, _⟩ => ⟨S65536x256, .f32⟩
  | .hbm, ⟨46, _⟩ => ⟨S65536x256, .f32⟩
  | .hbm, ⟨47, _⟩ => ⟨S64x1024x256, .f32⟩
  | _, _ => ⟨S64x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  shapeCasts_S64x1024x256_S65536x256 : S64x1024x256.ShapeCasts S65536x256
  shapeCasts_S64x1024x512_S65536x512 : S64x1024x512.ShapeCasts S65536x512
  bcast_S_S65536x256 : S_.BroadcastsInDim S65536x256 (![] : Fin 0 → Fin S65536x256.rank)
  shapeCasts_S64x1024_S65536x1 : S64x1024.ShapeCasts S65536x1
  bcast_S65536x1_S65536x256_0_1 : S65536x1.BroadcastsInDim S65536x256 (![0, 1] : Fin 2 → Fin S65536x256.rank)
  shapeCasts_S65536x256_S64x1024x256 : S65536x256.ShapeCasts S64x1024x256
  dot_S65536x512_S512x256_S65536x256_1_0_0_1_n_n_wf : DotDims.WF S65536x512 S512x256 S65536x256 [1] [0] [0] [1] [] []
  dot_S65536x256_S256x256_S65536x256_1_0_0_1_n_n_wf : DotDims.WF S65536x256 S256x256 S65536x256 [1] [0] [0] [1] [] []

variable [Facts₀]

def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf

class Facts : Prop extends Facts₀ where

variable [Facts]
-- ==== Proof.TileMatmul.lean ====
/-
  A row tile's matrix products, read at one entry.

  Inside a tile of 2048 nodes the kernel multiplies the tile's message rows (2048 × 512) and state rows (2048 × 256) by
  the weight matrices (512 × 256 and 256 × 256), each product accumulated into zeros. Over the extended reals entry
  `(p, q)` of such a product is the finite sum over the contracted index `k` of `L (p, k) · R (k, q)`: the left
  operand is read along row `p`, the right along column `q`, and the zero accumulator adds nothing.
-/
import proofs.«156465_j28028956573797_1_alg».proof.Proof.Gen.KernelIdeal
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The message product: (2048 × 512) · (512 × 256) -/

/-- The left operand's row coordinate is the output's row. -/
theorem lhsM_0 (i : S2048x256.Idx) (κ : dot_S2048x512_S512x256_S2048x256_1_0_0_1_n_n.contr.Idx) :
    (dot_S2048x512_S512x256_S2048x256_1_0_0_1_n_n.lhsIdx i κ 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
/-- The left operand's column coordinate is the contracted index. -/
theorem lhsM_1 (i : S2048x256.Idx) (κ : dot_S2048x512_S512x256_S2048x256_1_0_0_1_n_n.contr.Idx) :
    (dot_S2048x512_S512x256_S2048x256_1_0_0_1_n_n.lhsIdx i κ 1).val = (κ ⟨0, by decide⟩).val :=
  dot_S2048x512_S512x256_S2048x256_1_0_0_1_n_n.lhsIdx_val_of_single rfl i κ
/-- The right operand's row coordinate is the contracted index. -/
theorem rhsM_0 (i : S2048x256.Idx) (κ : dot_S2048x512_S512x256_S2048x256_1_0_0_1_n_n.contr.Idx) :
    (dot_S2048x512_S512x256_S2048x256_1_0_0_1_n_n.rhsIdx i κ 0).val = (κ ⟨0, by decide⟩).val :=
  dot_S2048x512_S512x256_S2048x256_1_0_0_1_n_n.rhsIdx_val_of_single rfl i κ
/-- The right operand's column coordinate is the output's column. -/
theorem rhsM_1 (i : S2048x256.Idx) (κ : dot_S2048x512_S512x256_S2048x256_1_0_0_1_n_n.contr.Idx) :
    (dot_S2048x512_S512x256_S2048x256_1_0_0_1_n_n.rhsIdx i κ 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- Entry `(p, q)` of the message product into zeros: `∑ k, L (p, k) · R (k, q)`. -/
theorem matmulM_apply (L : FVec Ideal S2048x512 .bf16) (R : FVec Ideal S512x256 .bf16) (p : Fin 2048) (q : Fin 256) :
    matmul dot_S2048x512_S512x256_S2048x256_1_0_0_1_n_n none L R (constant (F := Ideal) S2048x256 .f32 0x00000000#32) (ix2 p q)
      = ∑ k : Fin 512, L (ix2 p k) * R (ix2 k q) := by
  simp only [matmul]
  rw [Ideal.matmul_constant_zero_apply, ← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 p q) ((contrEquiv1 dot_S2048x512_S512x256_S2048x256_1_0_0_1_n_n 512 rfl rfl).symm k) = ix2 p k := funext fun a => Fin.ext (by
    match a with
    | ⟨0, _⟩ => exact lhsM_0 _ _
    | ⟨1, _⟩ => exact (lhsM_1 _ _).trans hk)
  have er : dot_S2048x512_S512x256_S2048x256_1_0_0_1_n_n.rhsIdx (ix2 p q) ((contrEquiv1 dot_S2048x512_S512x256_S2048x256_1_0_0_1_n_n 512 rfl rfl).symm k) = ix2 k q := funext fun a => Fin.ext (by
    match a with
    | ⟨0, _⟩ => exact (rhsM_0 _ _).trans hk
    | ⟨1, _⟩ => exact rhsM_1 _ _)
  rw [el, er]

/-! ## The state product: (2048 × 256) · (256 × 256) -/

/-- The left operand's row coordinate is the output's row. -/
theorem lhsH_0 (i : S2048x256.Idx) (κ : dot_S2048x256_S256x256_S2048x256_1_0_0_1_n_n.contr.Idx) :
    (dot_S2048x256_S256x256_S2048x256_1_0_0_1_n_n.lhsIdx i κ 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- The left operand's column coordinate is the contracted index. -/
theorem lhsH_1 (i : S2048x256.Idx) (κ : dot_S2048x256_S256x256_S2048x256_1_0_0_1_n_n.contr.Idx) :
    (dot_S2048x256_S256x256_S2048x256_1_0_0_1_n_n.lhsIdx i κ 1).val = (κ ⟨0, by decide⟩).val :=
  dot_S2048x256_S256x256_S2048x256_1_0_0_1_n_n.lhsIdx_val_of_single rfl i κ
/-- The right operand's row coordinate is the contracted index. -/
theorem rhsH_0 (i : S2048x256.Idx) (κ : dot_S2048x256_S256x256_S2048x256_1_0_0_1_n_n.contr.Idx) :
    (dot_S2048x256_S256x256_S2048x256_1_0_0_1_n_n.rhsIdx i κ 0).val = (κ ⟨0, by decide⟩).val :=
  dot_S2048x256_S256x256_S2048x256_1_0_0_1_n_n.rhsIdx_val_of_single rfl i κ
/-- The right operand's column coordinate is the output's column. -/
theorem rhsH_1 (i : S2048x256.Idx) (κ : dot_S2048x256_S256x256_S2048x256_1_0_0_1_n_n.contr.Idx) :
    (dot_S2048x256_S256x256_S2048x256_1_0_0_1_n_n.rhsIdx i κ 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- Entry `(p, q)` of the state product into zeros: `∑ k, L (p, k) · R (k, q)`. -/
theorem matmulH_apply (L : FVec Ideal S2048x256 .bf16) (R : FVec Ideal S256x256 .bf16) (p : Fin 2048) (q : Fin 256) :
    matmul dot_S2048x256_S256x256_S2048x256_1_0_0_1_n_n none L R (constant (F := Ideal) S2048x256 .f32 0x00000000#32) (ix2 p q)
      = ∑ k : Fin 256, L (ix2 p k) * R (ix2 k q) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhsH_0 _ _
    | ⟨1, _⟩ => exact (lhsH_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhsH_0 _ _).trans hk
    | ⟨1, _⟩ => exact rhsH_1 _ _)
  rw [el, er]

end Cert.KernelIdeal.Tile

end
-- ==== Proof.GruRow.lean ====
/-
  One node's gated-recurrent update over the extended reals.

  A node carries a state row `h` (256 entries), receives a message row `msg` (512 entries) and a mask value `mk`.
  With weight matrices `Wz, Wr, W` (512 × 256) and `Uz, Ur, U` (256 × 256) the update is

      z  = σ(msg · Wz + h · Uz)              (update gate)
      r  = σ(msg · Wr + h · Ur)              (reset gate)
      h̃  = tanh(msg · W + (r ⊙ h) · U)       (candidate)
      h' = ((1 − z) ⊙ h + z ⊙ h̃) · mk

  where every product `row · matrix` is the plain finite sum over the contracted index, σ is the logistic function
  `x ↦ 1 / (1 + e⁻ˣ)` and ⊙ is the entrywise product. Each output entry depends on ONE node's rows only: that is
  what lets a row tile of nodes be computed independently of the others. The constant `one` is kept as a parameter
  so that both programs' spelling of `1.0` is carried, not evaluated.
-/
import Idealize.ShloMosaic.PureOps.Ideal.Laws
import Idealize.ShloMosaic.Lib.ValueIdx
import Idealize.ShloMosaic.Lib.IdealHost

noncomputable section

open Idealize.ShloMosaic
open scoped BigOperators

namespace Cert.Gru

/-- A gate's pre-activation at output column `q`: the message row against column `q` of `W` plus the state row
    against column `q` of `U`, each a finite sum over the contracted index. -/
def pre (msg : Fin 512 → EReal) (h : Fin 256 → EReal) (W : Fin 512 → Fin 256 → EReal) (U : Fin 256 → Fin 256 → EReal)
    (q : Fin 256) : EReal :=
  (∑ k : Fin 512, msg k * W k q) + ∑ k : Fin 256, h k * U k q

/-- The reset-gated state row `r ⊙ h`, entry `k`. -/
def gated (msg : Fin 512 → EReal) (h : Fin 256 → EReal) (Wr : Fin 512 → Fin 256 → EReal) (Ur : Fin 256 → Fin 256 → EReal)
    (k : Fin 256) : EReal :=
  Ideal.logistic (pre msg h Wr Ur k) * h k

/-- Entry `q` of one node's updated, masked state. -/
def row (one : EReal) (h : Fin 256 → EReal) (msg : Fin 512 → EReal) (mk : EReal)
    (Wz : Fin 512 → Fin 256 → EReal) (Uz : Fin 256 → Fin 256 → EReal)
    (Wr : Fin 512 → Fin 256 → EReal) (Ur : Fin 256 → Fin 256 → EReal)
    (W : Fin 512 → Fin 256 → EReal) (U : Fin 256 → Fin 256 → EReal) (q : Fin 256) : EReal :=
  ((one - Ideal.logistic (pre msg h Wz Uz q)) * h q
    + Ideal.logistic (pre msg h Wz Uz q) * Ideal.tanh (pre msg (gated msg h Wr Ur) W U q)) * mk

/-- The update depends on the node's rows, its mask value and the weights only through their entries. -/
theorem row_congr {one : EReal} {h h' : Fin 256 → EReal} {msg msg' : Fin 512 → EReal} {mk mk' : EReal}
    {Wz Wz' : Fin 512 → Fin 256 → EReal} {Uz Uz' : Fin 256 → Fin 256 → EReal}
    {Wr Wr' : Fin 512 → Fin 256 → EReal} {Ur Ur' : Fin 256 → Fin 256 → EReal}
    {W W' : Fin 512 → Fin 256 → EReal} {U U' : Fin 256 → Fin 256 → EReal} (q : Fin 256)
    (eh : h = h') (em : msg = msg') (ek : mk = mk') (e3 : Wz = Wz') (e4 : Uz = Uz') (e5 : Wr = Wr') (e6 : Ur = Ur')
    (e7 : W = W') (e8 : U = U') :
    row one h msg mk Wz Uz Wr Ur W U q = row one h' msg' mk' Wz' Uz' Wr' Ur' W' U' q := by
  subst eh em ek e3 e4 e5 e6 e7 e8
  rfl

/-- The logistic function spelled out with the binary32 word of `1.0` in both places, as a host program expands it:
    `1.0 / (1.0 + e⁻ˣ)` is `σ(x)`, since that word denotes the extended real one. -/
theorem logistic_expanded (x : EReal) :
    Ideal.div (Ideal.ofBits .f32 0x3F800000#32) (Ideal.ofBits .f32 0x3F800000#32 + Ideal.exp (-x)) = Ideal.logistic x := by
  rw [Ideal.ofBits_one_f32]
  rfl

end Cert.Gru

end
-- ==== Proof.TilePayload.lean ====
/-
  What one row tile stores, read at one entry.

  The kernel body loads a tile of 2048 state rows `x0`, their message rows `x1`, their mask column `x2` and the six
  weight matrices, and stores ONE value over the whole output tile. Changes of float format and reshapes to the same
  shape are the identity on extended reals, so entry `(p, q)` of the stored value is the gated-recurrent update of
  node `p` of the tile, column `q`: it reads row `p` of `x0` and `x1`, entry `p` of the mask column, and the weights.
-/
import proofs.«156465_j28028956573797_1_alg».proof.Proof.Gen.KernelIdeal.Skeleton
import proofs.«156465_j28028956573797_1_alg».proof.Proof.TileMatmul
import proofs.«156465_j28028956573797_1_alg».proof.Proof.GruRow
import Idealize.ShloMosaic.Lib.Pipeline.Value

noncomputable section

open scoped BigOperators

namespace Cert.KernelIdeal.Tile

open Cert.KernelIdeal Cert.KernelIdeal.Gen Idealize.ShloMosaic Idealize.ShloMosaic.ValueIdx

/-- The state tile re-read after its identity reshape. -/
theorem state_eq (x0 : Vec Ideal S2048x256 .f32) : k0_pay2 x0 = x0 := shapeCast_self x0 _

/-- The mask column re-read after its identity reshape. -/
theorem mask_eq (x2 : Vec Ideal S2048x1 .f32) : k0_pay3 x2 = x2 := shapeCast_self x2 _

/-- The state tile narrowed for the matrix unit: the same extended reals. -/
theorem state_narrow_apply (x0 : Vec Ideal S2048x256 .f32) (i : S2048x256.Idx) : k0_pay4 x0 i = x0 i := by
  unfold k0_pay4
  show k0_pay2 x0 i = x0 i
  rw [state_eq]

/-- The message tile narrowed for the matrix unit: the same extended reals. -/
theorem msg_narrow_apply (x1 : Vec Ideal S2048x512 .f32) (i : S2048x512.Idx) : k0_pay5 x1 i = x1 i := by
  unfold k0_pay5
  show shapeCast S2048x512 x1 shapeCasts_S2048x512_S2048x512 i = x1 i
  rw [shapeCast_self]

/-- The update gate at tile entry `(p, q)`: the logistic of node `p`'s pre-activation at column `q`. -/
theorem update_gate_apply (x0 : Vec Ideal S2048x256 .f32) (x1 : Vec Ideal S2048x512 .f32)
    (x3 : Vec Ideal S512x256 .bf16) (x4 : Vec Ideal S256x256 .bf16) (p : Fin 2048) (q : Fin 256) :
    k0_pay6 x0 x1 x3 x4 (ix2 p q)
      = Ideal.logistic (Cert.Gru.pre (fun k => x1 (ix2 p k)) (fun k => x0 (ix2 p k)) (fun k j => x3 (ix2 k j)) (fun k j => x4 (ix2 k j)) q) := by
  unfold k0_pay6
  show Ideal.logistic (matmul dot_S2048x512_S512x256_S2048x256_1_0_0_1_n_n none (k0_pay5 x1) (shapeCast S512x256 x3 shapeCasts_S512x256_S512x256) (constant (F := Ideal) S2048x256 .f32 0x00000000#32) (ix2 p q)
      + matmul dot_S2048x256_S256x256_S2048x256_1_0_0_1_n_n none (k0_pay4 x0) (shapeCast S256x256 x4 shapeCasts_S256x256_S256x256) (constant (F := Ideal) S2048x256 .f32 0x00000000#32) (ix2 p q)) = _
  rw [matmulM_apply, matmulH_apply, shapeCast_self, shapeCast_self]
  unfold Cert.Gru.pre
  simp only [msg_narrow_apply, state_narrow_apply]

/-- The candidate at tile entry `(p, q)`: the hyperbolic tangent of node `p`'s pre-activation over its message row and
    its reset-gated state row. The reset gate inside it is the same gate function, at the reset weights. -/
theorem candidate_apply (x0 : Vec Ideal S2048x256 .f32) (x1 : Vec Ideal S2048x512 .f32)
    (x5 : Vec Ideal S512x256 .bf16) (x6 : Vec Ideal S256x256 .bf16) (x7 : Vec Ideal S512x256 .bf16) (x8 : Vec Ideal S256x256 .bf16)
    (p : Fin 2048) (q : Fin 256) :
    k0_pay7 x0 x1 x5 x6 x7 x8 (ix2 p q)
      = Ideal.tanh (Cert.Gru.pre (fun k => x1 (ix2 p k))
          (Cert.Gru.gated (fun k => x1 (ix2 p k)) (fun k => x0 (ix2 p k)) (fun k j => x5 (ix2 k j)) (fun k j => x6 (ix2 k j)))
          (fun k j => x7 (ix2 k j)) (fun k j => x8 (ix2 k j)) q) := by
  unfold k0_pay7
  show Ideal.tanh (matmul dot_S2048x512_S512x256_S2048x256_1_0_0_1_n_n none (k0_pay5 x1) (shapeCast S512x256 x7 shapeCasts_S512x256_S512x256) (constant (F := Ideal) S2048x256 .f32 0x00000000#32) (ix2 p q)
      + matmul dot_S2048x256_S256x256_S2048x256_1_0_0_1_n_n none (truncf .bf16 (mulf (k0_pay6 x0 x1 x5 x6) (k0_pay2 x0)) bitsLt_bf16_f32) (shapeCast S256x256 x8 shapeCasts_S256x256_S256x256) (constant (F := Ideal) S2048x256 .f32 0x00000000#32) (ix2 p q)) = _
  rw [matmulM_apply, matmulH_apply, shapeCast_self, shapeCast_self]
  have e : ∀ k : Fin 256, (truncf .bf16 (mulf (k0_pay6 x0 x1 x5 x6) (k0_pay2 x0)) bitsLt_bf16_f32 : FVec Ideal S2048x256 .bf16) (ix2 p k)
      = Cert.Gru.gated (fun k => x1 (ix2 p k)) (fun k => x0 (ix2 p k)) (fun k j => x5 (ix2 k j)) (fun k j => x6 (ix2 k j)) k := fun k => by
    show k0_pay6 x0 x1 x5 x6 (ix2 p k) * k0_pay2 x0 (ix2 p k) = _
    rw [update_gate_apply, state_eq]
    rfl
  unfold Cert.Gru.pre
  simp only [msg_narrow_apply, e]

/-- The mask column spread over the tile's columns: entry `(p, q)` is node `p`'s mask value. -/
theorem mask_spread_apply (x2 : Vec Ideal S2048x1 .f32) (p : Fin 2048) (q : Fin 256) :
    broadcastTo S2048x256 x2 broadcasts_S2048x1_S2048x256 (ix2 p q) = x2 (ix2 p (0 : Fin 1)) :=
  broadcastTo_apply x2 broadcasts_S2048x1_S2048x256 (ix2 p q) (ix2 p (0 : Fin 1)) (fun a => match a with
    | ⟨0, _⟩ => by show p.val = if (2048 : Nat) = 1 then 0 else p.val; rw [if_neg (by decide)]
    | ⟨1, _⟩ => by show (0 : Nat) = if (1 : Nat) = 1 then 0 else q.val; rw [if_pos rfl])

/-- THE STORED VALUE at tile entry `(p, q)` is node `p`'s update at column `q`. -/
theorem stored_apply (x0 : Vec Ideal S2048x256 .f32) (x1 : Vec Ideal S2048x512 .f32) (x2 : Vec Ideal S2048x1 .f32)
    (x3 : Vec Ideal S512x256 .bf16) (x4 : Vec Ideal S256x256 .bf16) (x5 : Vec Ideal S512x256 .bf16) (x6 : Vec Ideal S256x256 .bf16)
    (x7 : Vec Ideal S512x256 .bf16) (x8 : Vec Ideal S256x256 .bf16) (p : Fin 2048) (q : Fin 256) :
    k0_pay1 (k0_pay2 x0) (k0_pay3 x2) (k0_pay6 x0 x1 x3 x4) (k0_pay7 x0 x1 x5 x6 x7 x8) (Scalar.ofBits .f32 0x3F800000#32) (ix2 p q)
      = Cert.Gru.row (Ideal.ofBits .f32 0x3F800000#32) (fun k => x0 (ix2 p k)) (fun k => x1 (ix2 p k)) (x2 (ix2 p (0 : Fin 1)))
          (fun k j => x3 (ix2 k j)) (fun k j => x4 (ix2 k j)) (fun k j => x5 (ix2 k j)) (fun k j => x6 (ix2 k j))
          (fun k j => x7 (ix2 k j)) (fun k j => x8 (ix2 k j)) q := by
  unfold k0_pay1
  show ((Ideal.ofBits .f32 0x3F800000#32 - k0_pay6 x0 x1 x3 x4 (ix2 p q)) * k0_pay2 x0 (ix2 p q)
      + k0_pay6 x0 x1 x3 x4 (ix2 p q) * k0_pay7 x0 x1 x5 x6 x7 x8 (ix2 p q))
      * broadcastTo S2048x256 (k0_pay3 x2) broadcasts_S2048x1_S2048x256 (ix2 p q) = _
  rw [update_gate_apply, candidate_apply, state_eq, mask_eq, mask_spread_apply]
  rfl

end Cert.KernelIdeal.Tile

end
-- ==== Proof.TileArray.lean ====
/-
  From row tiles to the whole array.

  The launch cuts the 65536 flattened nodes into 32 tiles of 2048 consecutive rows; grid point `t` reads rows
  `2048·t … 2048·t + 2047` of the state, message and mask arrays, the six weight matrices whole, and writes the same rows
  of the output. Since an output entry depends on its own node's rows only, what point `t` writes back is block `t` of
  ONE whole-array function, and the 32 blocks tile the array: the output array ends holding that function.
-/
import proofs.«156465_j28028956573797_1_alg».proof.Proof.Gen.KernelIdeal.Frame
import proofs.«156465_j28028956573797_1_alg».proof.Proof.TilePayload
import Idealize.ShloMosaic.Lib.Pipeline.Value
import Idealize.ShloMosaic.Lib.StableHlo.Run

set_option maxRecDepth 16384

noncomputable section

open scoped BigOperators

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Node `r`'s update at column `q`, from the flattened arrays and the narrowed weights as the launch finds them. -/
def nodeAt (c : Dev nD) (r : Fin 65536) (q : Fin 256) : EReal :=
  Cert.Gru.row (Ideal.ofBits .f32 0x3F800000#32)
    (fun k => (V m c main_v0 : S65536x256.Idx → EReal) (ix2 r k))
    (fun k => (V m c main_v1 : S65536x512.Idx → EReal) (ix2 r k))
    ((V m c main_v2 : S65536x1.Idx → EReal) (ix2 r (0 : Fin 1)))
    (fun k j => (V m c main_v3 : S512x256.Idx → EReal) (ix2 k j)) (fun k j => (V m c main_v4 : S256x256.Idx → EReal) (ix2 k j))
    (fun k j => (V m c main_v5 : S512x256.Idx → EReal) (ix2 k j)) (fun k j => (V m c main_v6 : S256x256.Idx → EReal) (ix2 k j))
    (fun k j => (V m c main_v7 : S512x256.Idx → EReal) (ix2 k j)) (fun k j => (V m c main_v8 : S256x256.Idx → EReal) (ix2 k j)) q

/-- The whole output array: every node's update. -/
def whole (c : Dev nD) : S65536x256.Idx → EReal := fun i => nodeAt m c (i 0) (i 1)

/-- The printed index maps, decided over the grid: the three row-tiled inputs and the output sit at block `(t, 0)`, the
    six weight matrices at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- A grid point is one of 32. -/
theorem point_lt (t : Fin cfg0.N) : t.val < 32 := lt_of_lt_of_eq t.isLt N_0

/-- The flattened row that row `p` of tile `t` is. -/
def rowOf (t : Fin cfg0.N) (p : Fin 2048) : Fin 65536 :=
  ⟨t.val * 2048 + p.val, by have := point_lt t; have := p.isLt; omega⟩

/-! ## What each window's block reads -/

/-- Row `p` of the state tile at point `t` is flattened row `2048·t + p`. -/
theorem state_blk (c : Dev nD) (t : Fin cfg0.N) (p : Fin 2048) (k : Fin 256) :
    (iblk m c 0 t : S2048x256.Idx → EReal) (ix2 p k) = (V m c main_v0 : S65536x256.Idx → EReal) (ix2 (rowOf t p) k) := by
  show (V m c main_v0 : S65536x256.Idx → EReal) (((cfg0.win 0).blk t).view.emb (ix2 p k)) = _
  refine congrArg _ (funext fun a => Fin.ext ?_)
  obtain ⟨a0, b0, a1, b1, a2, b2, a3, b3, a4, b4, a5, b5, a6, b6, a7, b7, a8, b8, a9, b9⟩ := idx_facts t
  match a with
  | ⟨0, _⟩ => show win0_0.index t (0 : Fin 2) * 2048 + 1 * p.val = t.val * 2048 + p.val; omega
  | ⟨1, _⟩ => show win0_0.index t (1 : Fin 2) * 256 + 1 * k.val = k.val; omega

/-- Row `p` of the message tile at point `t` is flattened row `2048·t + p`. -/
theorem msg_blk (c : Dev nD) (t : Fin cfg0.N) (p : Fin 2048) (k : Fin 512) :
    (iblk m c 1 t : S2048x512.Idx → EReal) (ix2 p k) = (V m c main_v1 : S65536x512.Idx → EReal) (ix2 (rowOf t p) k) := by
  show (V m c main_v1 : S65536x512.Idx → EReal) (((cfg0.win 1).blk t).view.emb (ix2 p k)) = _
  refine congrArg _ (funext fun a => Fin.ext ?_)
  obtain ⟨a0, b0, a1, b1, a2, b2, a3, b3, a4, b4, a5, b5, a6, b6, a7, b7, a8, b8, a9, b9⟩ := idx_facts t
  match a with
  | ⟨0, _⟩ => show win0_1.index t (0 : Fin 2) * 2048 + 1 * p.val = t.val * 2048 + p.val; omega
  | ⟨1, _⟩ => show win0_1.index t (1 : Fin 2) * 512 + 1 * k.val = k.val; omega

/-- Entry `p` of the mask tile at point `t` is flattened row `2048·t + p`'s mask value. -/
theorem mask_blk (c : Dev nD) (t : Fin cfg0.N) (p : Fin 2048) :
    (iblk m c 2 t : S2048x1.Idx → EReal) (ix2 p (0 : Fin 1)) = (V m c main_v2 : S65536x1.Idx → EReal) (ix2 (rowOf t p) (0 : Fin 1)) := by
  show (V m c main_v2 : S65536x1.Idx → EReal) (((cfg0.win 2).blk t).view.emb (ix2 p (0 : Fin 1))) = _
  refine congrArg _ (funext fun a => Fin.ext ?_)
  obtain ⟨a0, b0, a1, b1, a2, b2, a3, b3, a4, b4, a5, b5, a6, b6, a7, b7, a8, b8, a9, b9⟩ := idx_facts t
  match a with
  | ⟨0, _⟩ => show win0_2.index t (0 : Fin 2) * 2048 + 1 * p.val = t.val * 2048 + p.val; omega
  | ⟨1, _⟩ => show win0_2.index t (1 : Fin 2) * 1 + 1 * (0 : Fin 1).val = (0 : Fin 1).val; omega

/-- The update gate's message weights are read whole at every point. -/
theorem wz_blk (c : Dev nD) (t : Fin cfg0.N) (k : Fin 512) (j : Fin 256) :
    (iblk m c 3 t : S512x256.Idx → EReal) (ix2 k j) = (V m c main_v3 : S512x256.Idx → EReal) (ix2 k j) := by
  show (V m c main_v3 : S512x256.Idx → EReal) (((cfg0.win 3).blk t).view.emb (ix2 k j)) = _
  refine congrArg _ (funext fun a => Fin.ext ?_)
  obtain ⟨a0, b0, a1, b1, a2, b2, a3, b3, a4, b4, a5, b5, a6, b6, a7, b7, a8, b8, a9, b9⟩ := idx_facts t
  match a with
  | ⟨0, _⟩ => show win0_3.index t (0 : Fin 2) * 512 + 1 * k.val = k.val; omega
  | ⟨1, _⟩ => show win0_3.index t (1 : Fin 2) * 256 + 1 * j.val = j.val; omega

/-- The update gate's state weights are read whole at every point. -/
theorem uz_blk (c : Dev nD) (t : Fin cfg0.N) (k : Fin 256) (j : Fin 256) :
    (iblk m c 4 t : S256x256.Idx → EReal) (ix2 k j) = (V m c main_v4 : S256x256.Idx → EReal) (ix2 k j) := by
  show (V m c main_v4 : S256x256.Idx → EReal) (((cfg0.win 4).blk t).view.emb (ix2 k j)) = _
  refine congrArg _ (funext fun a => Fin.ext ?_)
  obtain ⟨a0, b0, a1, b1, a2, b2, a3, b3, a4, b4, a5, b5, a6, b6, a7, b7, a8, b8, a9, b9⟩ := idx_facts t
  match a with
  | ⟨0, _⟩ => show win0_4.index t (0 : Fin 2) * 256 + 1 * k.val = k.val; omega
  | ⟨1, _⟩ => show win0_4.index t (1 : Fin 2) * 256 + 1 * j.val = j.val; omega

/-- The reset gate's message weights are read whole at every point. -/
theorem wr_blk (c : Dev nD) (t : Fin cfg0.N) (k : Fin 512) (j : Fin 256) :
    (iblk m c 5 t : S512x256.Idx → EReal) (ix2 k j) = (V m c main_v5 : S512x256.Idx → EReal) (ix2 k j) := by
  show (V m c main_v5 : S512x256.Idx → EReal) (((cfg0.win 5).blk t).view.emb (ix2 k j)) = _
  refine congrArg _ (funext fun a => Fin.ext ?_)
  obtain ⟨a0, b0, a1, b1, a2, b2, a3, b3, a4, b4, a5, b5, a6, b6, a7, b7, a8, b8, a9, b9⟩ := idx_facts t
  match a with
  | ⟨0, _⟩ => show win0_5.index t (0 : Fin 2) * 512 + 1 * k.val = k.val; omega
  | ⟨1, _⟩ => show win0_5.index t (1 : Fin 2) * 256 + 1 * j.val = j.val; omega

/-- The reset gate's state weights are read whole at every point. -/
theorem ur_blk (c : Dev nD) (t : Fin cfg0.N) (k : Fin 256) (j : Fin 256) :
    (iblk m c 6 t : S256x256.Idx → EReal) (ix2 k j) = (V m c main_v6 : S256x256.Idx → EReal) (ix2 k j) := by
  show (V m c main_v6 : S256x256.Idx → EReal) (((cfg0.win 6).blk t).view.emb (ix2 k j)) = _
  refine congrArg _ (funext fun a => Fin.ext ?_)
  obtain ⟨a0, b0, a1, b1, a2, b2, a3, b3, a4, b4, a5, b5, a6, b6, a7, b7, a8, b8, a9, b9⟩ := idx_facts t
  match a with
  | ⟨0, _⟩ => show win0_6.index t (0 : Fin 2) * 256 + 1 * k.val = k.val; omega
  | ⟨1, _⟩ => show win0_6.index t (1 : Fin 2) * 256 + 1 * j.val = j.val; omega

/-- The candidate's message weights are read whole at every point. -/
theorem w_blk (c : Dev nD) (t : Fin cfg0.N) (k : Fin 512) (j : Fin 256) :
    (iblk m c 7 t : S512x256.Idx → EReal) (ix2 k j) = (V m c main_v7 : S512x256.Idx → EReal) (ix2 k j) := by
  show (V m c main_v7 : S512x256.Idx → EReal) (((cfg0.win 7).blk t).view.emb (ix2 k j)) = _
  refine congrArg _ (funext fun a => Fin.ext ?_)
  obtain ⟨a0, b0, a1, b1, a2, b2, a3, b3, a4, b4, a5, b5, a6, b6, a7, b7, a8, b8, a9, b9⟩ := idx_facts t
  match a with
  | ⟨0, _⟩ => show win0_7.index t (0 : Fin 2) * 512 + 1 * k.val = k.val; omega
  | ⟨1, _⟩ => show win0_7.index t (1 : Fin 2) * 256 + 1 * j.val = j.val; omega

/-- The candidate's state weights are read whole at every point. -/
theorem u_blk (c : Dev nD) (t : Fin cfg0.N) (k : Fin 256) (j : Fin 256) :
    (iblk m c 8 t : S256x256.Idx → EReal) (ix2 k j) = (V m c main_v8 : S256x256.Idx → EReal) (ix2 k j) := by
  show (V m c main_v8 : S256x256.Idx → EReal) (((cfg0.win 8).blk t).view.emb (ix2 k j)) = _
  refine congrArg _ (funext fun a => Fin.ext ?_)
  obtain ⟨a0, b0, a1, b1, a2, b2, a3, b3, a4, b4, a5, b5, a6, b6, a7, b7, a8, b8, a9, b9⟩ := idx_facts t
  match a with
  | ⟨0, _⟩ => show win0_8.index t (0 : Fin 2) * 256 + 1 * k.val = k.val; omega
  | ⟨1, _⟩ => show win0_8.index t (1 : Fin 2) * 256 + 1 * j.val = j.val; omega

/-! ## What point `t` writes back -/

theorem origin_eq : (![0, 0] : Fin 2 → Nat) = fun _ => 0 := funext fun a => by fin_cases a <;> rfl

/-- Entry `(p, q)` of the output block at point `t` sits at flattened row `2048·t + p`, column `q`. -/
theorem out_emb (t : Fin cfg0.N) (p : Fin 2048) (q : Fin 256) :
    ((cfg0.win 9).blk t).view.emb (ix2 p q) = (ix2 (rowOf t p) q : S65536x256.Idx) := by
  funext a; apply Fin.ext
  obtain ⟨a0, b0, a1, b1, a2, b2, a3, b3, a4, b4, a5, b5, a6, b6, a7, b7, a8, b8, a9, b9⟩ := idx_facts t
  match a with
  | ⟨0, _⟩ => show win0_9.index t (0 : Fin 2) * 2048 + 1 * p.val = t.val * 2048 + p.val; omega
  | ⟨1, _⟩ => show win0_9.index t (1 : Fin 2) * 256 + 1 * q.val = q.val; omega

/-- WHAT POINT `t` WRITES BACK is block `t` of the whole-array function: entry `(p, q)` of the stored tile is the update of
    tile row `p`, whose rows are flattened row `2048·t + p`'s. -/
theorem flushed_eq (c : Dev nD) (t : Fin cfg0.N) :
    (dats m 0 c).flushed 9 t = ((cfg0.win 9).blk t).view.read (Elt Ideal) (whole m c) := by
  show (cfg0.win 9).cut (grid0.coords t) ((dats m 0 c).after 9 t) = _
  rw [after0_9]
  unfold out0_9
  rw [View.canon_unit_zero origin_eq]
  simp only [View.ld_unit_zero (S := S2048x256) origin_eq, View.ld_unit_zero (S := S2048x512) origin_eq, View.ld_unit_zero (S := S2048x1) origin_eq,
    View.ld_unit_zero (S := S512x256) origin_eq, View.ld_unit_zero (S := S256x256) origin_eq]
  funext j
  obtain ⟨p, q, rfl⟩ : ∃ (p : Fin 2048) (q : Fin 256), j = ix2 p q := ⟨j 0, j 1, eq_ix2 j⟩
  show k0_pay1 (k0_pay2 (iblk m c 0 t)) (k0_pay3 (iblk m c 2 t)) (k0_pay6 (iblk m c 0 t) (iblk m c 1 t) (iblk m c 3 t) (iblk m c 4 t))
      (k0_pay7 (iblk m c 0 t) (iblk m c 1 t) (iblk m c 5 t) (iblk m c 6 t) (iblk m c 7 t) (iblk m c 8 t)) (Scalar.ofBits .f32 0x3F800000#32) (ix2 p q)
    = whole m c (((cfg0.win 9).blk t).view.emb (ix2 p q))
  rw [out_emb]
  refine (Tile.stored_apply (iblk m c 0 t) (iblk m c 1 t) (iblk m c 2 t) (iblk m c 3 t) (iblk m c 4 t) (iblk m c 5 t) (iblk m c 6 t)
    (iblk m c 7 t) (iblk m c 8 t) p q).trans ?_
  exact Cert.Gru.row_congr q (funext (state_blk m c t p)) (funext (msg_blk m c t p)) (mask_blk m c t p)
    (funext fun k => funext fun j => wz_blk m c t k j) (funext fun k => funext fun j => uz_blk m c t k j)
    (funext fun k => funext fun j => wr_blk m c t k j) (funext fun k => funext fun j => ur_blk m c t k j)
    (funext fun k => funext fun j => w_blk m c t k j) (funext fun k => funext fun j => u_blk m c t k j)

/-! ## The blocks tile the array -/

/-- An index of the output array is in point `t`'s block iff each coordinate is in the block's range on its axis. -/
theorem mem_blk (t : Fin cfg0.N) (i : S65536x256.Idx) :
    i ∈ ((cfg0.win 9).blk t).view.set ↔ ∀ a : Fin 2, win0_9.index t a * S2048x256.size a ≤ (i a).val ∧ (i a).val < win0_9.index t a * S2048x256.size a + S2048x256.size a := by
  show i ∈ ((View.whole main_v9).slice (win0_9.rect t)).set ↔ _
  rw [View.set_slice_whole, Rect.mem_set_unit]
  exact Iff.rfl

/-- Row `r` lies in the block of point `r / 2048`, which writes back like every point. -/
theorem cover (i : S65536x256.Idx) : ∃ t : Fin cfg0.N, (cfg0.win 9).flush t = true ∧ i ∈ ((cfg0.win 9).blk t).view.set := by
  have hi0 : (i 0).val < 65536 := (i 0).isLt
  have hi1 : (i 1).val < 256 := (i 1).isLt
  have hlt : (i 0).val / 2048 < cfg0.N := lt_of_lt_of_eq (by omega : (i 0).val / 2048 < 32) N_0.symm
  refine ⟨⟨(i 0).val / 2048, hlt⟩, flush0_9 _, ?_⟩
  rw [mem_blk]
  obtain ⟨a0, b0, a1, b1, a2, b2, a3, b3, a4, b4, a5, b5, a6, b6, a7, b7, a8, b8, a9, b9⟩ := idx_facts ⟨(i 0).val / 2048, hlt⟩
  have a9' : win0_9.index ⟨(i 0).val / 2048, hlt⟩ (0 : Fin 2) = (i 0).val / 2048 := a9
  intro a
  match a with
  | ⟨0, _⟩ =>
    show win0_9.index ⟨(i 0).val / 2048, hlt⟩ (0 : Fin 2) * 2048 ≤ (i 0).val ∧ (i 0).val < win0_9.index ⟨(i 0).val / 2048, hlt⟩ (0 : Fin 2) * 2048 + 2048
    omega
  | ⟨1, _⟩ =>
    show win0_9.index ⟨(i 0).val / 2048, hlt⟩ (1 : Fin 2) * 256 ≤ (i 1).val ∧ (i 1).val < win0_9.index ⟨(i 0).val / 2048, hlt⟩ (1 : Fin 2) * 256 + 256
    omega

/-- THE OUTPUT ARRAY after the launch holds every node's update. -/
theorem final (c : Dev nD) : (dats m 0 c).arrAt 9 cfg0.N = whole m c :=
  (dats m 0 c).arrAt_eq_of_cover 9 (whole m c) (fun t _ => flushed_eq m c t) cover

/-! ## The arrays the launch finds: the host lines before it -/

/-- The flattened state array is the state argument reshaped. -/
theorem state_entry (c : Dev nD) :
    (V m c main_v0 : S65536x256.Idx → EReal) = shapeCast S65536x256 (m ((c : Thread nD τ).loc main_arg0)) shapeCasts_S64x1024x256_S65536x256 := by
  show StableHlo.after hostOps0 (fun b => m (c, b)) (Proc.devRef .tc main_v0) = _
  after_results
  rfl

/-- The flattened message array is the message argument reshaped. -/
theorem msg_entry (c : Dev nD) :
    (V m c main_v1 : S65536x512.Idx → EReal) = shapeCast S65536x512 (m ((c : Thread nD τ).loc main_arg1)) shapeCasts_S64x1024x512_S65536x512 := by
  show StableHlo.after hostOps0 (fun b => m (c, b)) (Proc.devRef .tc main_v1) = _
  after_results
  rfl

/-- The mask column is the mask argument reshaped. -/
theorem mask_entry (c : Dev nD) :
    (V m c main_v2 : S65536x1.Idx → EReal) = shapeCast S65536x1 (m ((c : Thread nD τ).loc main_arg2)) shapeCasts_S64x1024_S65536x1 := by
  show StableHlo.after hostOps0 (fun b => m (c, b)) (Proc.devRef .tc main_v2) = _
  after_results
  rfl

/-- Narrowing a weight matrix for the matrix unit keeps its extended reals: the update gate's message weights. -/
theorem wz_entry (c : Dev nD) : (V m c main_v3 : S512x256.Idx → EReal) = ((m ((c : Thread nD τ).loc main_arg3)) : S512x256.Idx → EReal) := by
  show StableHlo.after hostOps0 (fun b => m (c, b)) (Proc.devRef .tc main_v3) = _
  after_results
  rfl

/-- The update gate's state weights, narrowed: the same extended reals. -/
theorem uz_entry (c : Dev nD) : (V m c main_v4 : S256x256.Idx → EReal) = ((m ((c : Thread nD τ).loc main_arg4)) : S256x256.Idx → EReal) := by
  show StableHlo.after hostOps0 (fun b => m (c, b)) (Proc.devRef .tc main_v4) = _
  after_results
  rfl

/-- The reset gate's message weights, narrowed: the same extended reals. -/
theorem wr_entry (c : Dev nD) : (V m c main_v5 : S512x256.Idx → EReal) = ((m ((c : Thread nD τ).loc main_arg5)) : S512x256.Idx → EReal) := by
  show StableHlo.after hostOps0 (fun b => m (c, b)) (Proc.devRef .tc main_v5) = _
  after_results
  rfl

/-- The reset gate's state weights, narrowed: the same extended reals. -/
theorem ur_entry (c : Dev nD) : (V m c main_v6 : S256x256.Idx → EReal) = ((m ((c : Thread nD τ).loc main_arg6)) : S256x256.Idx → EReal) := by
  show StableHlo.after hostOps0 (fun b => m (c, b)) (Proc.devRef .tc main_v6) = _
  after_results
  rfl

/-- The candidate's message weights, narrowed: the same extended reals. -/
theorem w_entry (c : Dev nD) : (V m c main_v7 : S512x256.Idx → EReal) = ((m ((c : Thread nD τ).loc main_arg7)) : S512x256.Idx → EReal) := by
  show StableHlo.after hostOps0 (fun b => m (c, b)) (Proc.devRef .tc main_v7) = _
  after_results
  rfl

/-- The candidate's state weights, narrowed: the same extended reals. -/
theorem u_entry (c : Dev nD) : (V m c main_v8 : S256x256.Idx → EReal) = ((m ((c : Thread nD τ).loc main_arg8)) : S256x256.Idx → EReal) := by
  show StableHlo.after hostOps0 (fun b => m (c, b)) (Proc.devRef .tc main_v8) = _
  after_results
  rfl

/-! ## The host line after the launch, and the run -/

/-- The program's result is the output array reshaped back to 64 × 1024 × 256. -/
theorem result_eq (c : Dev nD) :
    Pipeline.afterTail₀ cfgs (dats m) 0 (V0 m) [hostOps1] c main_v10
      = shapeCast S64x1024x256 (whole m c) shapeCasts_S65536x256_S64x1024x256 := by
  unfold Pipeline.afterTail₀
  show StableHlo.after hostOps1 _ (Proc.devRef .tc main_v10) = _
  after_results
  exact congrArg (fun x => shapeCast S64x1024x256 x shapeCasts_S65536x256_S64x1024x256)
    ((Pipeline.withArrays_arr spec0 launch0.win.arr_inj c _ _ 9).trans (final m c))

/-- Every weakly fair execution of the idealized kernel program terminates with its result at every node's update,
    reshaped, and its nine arguments unchanged. -/
theorem run : θ_run defs (onTc (τ := τ) (main (F := Ideal))) ⟨m, fun _ => 0, ρ⟩ fun r => ∀ c : Dev nD,
      r.2.mem ((c : Thread nD τ).loc main_v10) = shapeCast S64x1024x256 (whole m c) shapeCasts_S65536x256_S64x1024x256
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Whole

end
-- ==== Proof.RefRow.lean ====
/-
  The reference's last full-size stage, read at one entry.

  The reference flattens the 64 × 1024 nodes into 65536 rows and computes the update with whole-array operations: six
  matrix products against the weights, the logistic function spelled as `1.0 / (1.0 + e⁻ˣ)`, the hyperbolic tangent,
  and the mask column spread over the columns. Read at entry `(r, q)`, every stage depends on row `r` of the flattened
  state and message arrays only (a product `A · W` at `(r, q)` is `∑ k, A (r, k) · W (k, q)`), so the stage before the
  final reshape is the gated-recurrent update of node `r` at column `q`.
-/
import proofs.«156465_j28028956573797_1_alg».proof.Proof.Gen.ReferenceIdeal.Read
import proofs.«156465_j28028956573797_1_alg».proof.Proof.GruRow

noncomputable section

open scoped BigOperators

namespace Cert.ReferenceIdeal.Rows

open Cert.ReferenceIdeal Cert.ReferenceIdeal.Gen Cert.ReferenceIdeal.Read Idealize.ShloMosaic Idealize.ShloMosaic.ValueIdx

/-! ## Where each matrix product reads its operands: the left along row `r`, the right along column `q` -/

theorem lidx_v2 (r : Fin 65536) (q : Fin 256) (k : Fin 512) : lidx_main_v2 (ix2 r q) k = ix2 r k :=
  funext fun a => by match a with | ⟨0, _⟩ => rfl | ⟨1, _⟩ => rfl
theorem ridx_v2 (r : Fin 65536) (q : Fin 256) (k : Fin 512) : ridx_main_v2 (ix2 r q) k = ix2 k q :=
  funext fun a => by match a with | ⟨0, _⟩ => rfl | ⟨1, _⟩ => rfl
theorem lidx_v3 (r : Fin 65536) (q : Fin 256) (k : Fin 256) : lidx_main_v3 (ix2 r q) k = ix2 r k :=
  funext fun a => by match a with | ⟨0, _⟩ => rfl | ⟨1, _⟩ => rfl
theorem ridx_v3 (r : Fin 65536) (q : Fin 256) (k : Fin 256) : ridx_main_v3 (ix2 r q) k = ix2 k q :=
  funext fun a => by match a with | ⟨0, _⟩ => rfl | ⟨1, _⟩ => rfl
theorem lidx_v11 (r : Fin 65536) (q : Fin 256) (k : Fin 512) : lidx_main_v11 (ix2 r q) k = ix2 r k :=
  funext fun a => by match a with | ⟨0, _⟩ => rfl | ⟨1, _⟩ => rfl
theorem ridx_v11 (r : Fin 65536) (q : Fin 256) (k : Fin 512) : ridx_main_v11 (ix2 r q) k = ix2 k q :=
  funext fun a => by match a with | ⟨0, _⟩ => rfl | ⟨1, _⟩ => rfl
theorem lidx_v12 (r : Fin 65536) (q : Fin 256) (k : Fin 256) : lidx_main_v12 (ix2 r q) k = ix2 r k :=
  funext fun a => by match a with | ⟨0, _⟩ => rfl | ⟨1, _⟩ => rfl
theorem ridx_v12 (r : Fin 65536) (q : Fin 256) (k : Fin 256) : ridx_main_v12 (ix2 r q) k = ix2 k q :=
  funext fun a => by match a with | ⟨0, _⟩ => rfl | ⟨1, _⟩ => rfl
theorem lidx_v20 (r : Fin 65536) (q : Fin 256) (k : Fin 512) : lidx_main_v20 (ix2 r q) k = ix2 r k :=
  funext fun a => by match a with | ⟨0, _⟩ => rfl | ⟨1, _⟩ => rfl
theorem ridx_v20 (r : Fin 65536) (q : Fin 256) (k : Fin 512) : ridx_main_v20 (ix2 r q) k = ix2 k q :=
  funext fun a => by match a with | ⟨0, _⟩ => rfl | ⟨1, _⟩ => rfl
theorem lidx_v22 (r : Fin 65536) (q : Fin 256) (k : Fin 256) : lidx_main_v22 (ix2 r q) k = ix2 r k :=
  funext fun a => by match a with | ⟨0, _⟩ => rfl | ⟨1, _⟩ => rfl
theorem ridx_v22 (r : Fin 65536) (q : Fin 256) (k : Fin 256) : ridx_main_v22 (ix2 r q) k = ix2 k q :=
  funext fun a => by match a with | ⟨0, _⟩ => rfl | ⟨1, _⟩ => rfl

/-- The mask column spread over the columns reads node `r`'s mask value. -/
theorem idx_v31 (r : Fin 65536) (q : Fin 256) : idx_main_v31 (ix2 r q) = ix2 r (0 : Fin 1) :=
  funext fun a => by match a with | ⟨0, _⟩ => rfl | ⟨1, _⟩ => rfl

variable (x0 : (⟨S64x1024x256, .f32⟩ : BufTy).Contents (Elt Ideal)) (x1 : (⟨S64x1024x512, .f32⟩ : BufTy).Contents (Elt Ideal)) (x2 : (⟨S64x1024, .f32⟩ : BufTy).Contents (Elt Ideal))
  (x3 : (⟨S512x256, .f32⟩ : BufTy).Contents (Elt Ideal)) (x4 : (⟨S256x256, .f32⟩ : BufTy).Contents (Elt Ideal)) (x5 : (⟨S512x256, .f32⟩ : BufTy).Contents (Elt Ideal)) (x6 : (⟨S256x256, .f32⟩ : BufTy).Contents (Elt Ideal))
  (x7 : (⟨S512x256, .f32⟩ : BufTy).Contents (Elt Ideal)) (x8 : (⟨S256x256, .f32⟩ : BufTy).Contents (Elt Ideal))

/-! ## The update gate -/

/-- Its pre-activation at `(r, q)`. -/
theorem update_pre (r : Fin 65536) (q : Fin 256) :
    val_main_v4 (F := Ideal) x0 x1 x3 x4 (ix2 r q)
      = Cert.Gru.pre (fun k => val_main_v1 (F := Ideal) x1 (ix2 r k)) (fun k => val_main_v0 (F := Ideal) x0 (ix2 r k))
          (fun k j => x3 (ix2 k j)) (fun k j => x4 (ix2 k j)) q := by
  rw [val_main_v4_apply, val_main_v2_apply, val_main_v3_apply]
  simp only [lidx_v2, ridx_v2, lidx_v3, ridx_v3]
  rfl

/-- The host's expanded `1.0 / (1.0 + e⁻ˣ)` is the logistic function of the pre-activation. -/
theorem update_gate (r : Fin 65536) (q : Fin 256) :
    val_main_v10 (F := Ideal) x0 x1 x3 x4 (ix2 r q) = Ideal.logistic (val_main_v4 (F := Ideal) x0 x1 x3 x4 (ix2 r q)) := by
  rw [val_main_v10_apply, val_main_v9_apply, val_main_cst_0_apply, val_main_v8_apply, val_main_v7_apply, val_main_cst_apply,
    val_main_v6_apply, val_main_v5_apply]
  exact Cert.Gru.logistic_expanded _

/-! ## The reset gate -/

/-- Its pre-activation at `(r, q)`. -/
theorem reset_pre (r : Fin 65536) (q : Fin 256) :
    val_main_v13 (F := Ideal) x0 x1 x5 x6 (ix2 r q)
      = Cert.Gru.pre (fun k => val_main_v1 (F := Ideal) x1 (ix2 r k)) (fun k => val_main_v0 (F := Ideal) x0 (ix2 r k))
          (fun k j => x5 (ix2 k j)) (fun k j => x6 (ix2 k j)) q := by
  rw [val_main_v13_apply, val_main_v11_apply, val_main_v12_apply]
  simp only [lidx_v11, ridx_v11, lidx_v12, ridx_v12]
  rfl

/-- The expanded logistic again. -/
theorem reset_gate (r : Fin 65536) (q : Fin 256) :
    val_main_v19 (F := Ideal) x0 x1 x5 x6 (ix2 r q) = Ideal.logistic (val_main_v13 (F := Ideal) x0 x1 x5 x6 (ix2 r q)) := by
  rw [val_main_v19_apply, val_main_v18_apply, val_main_cst_2_apply, val_main_v17_apply, val_main_v16_apply, val_main_cst_1_apply,
    val_main_v15_apply, val_main_v14_apply]
  exact Cert.Gru.logistic_expanded _

/-- The reset-gated state at `(r, k)`. -/
theorem gated_state (r : Fin 65536) (k : Fin 256) :
    val_main_v21 (F := Ideal) x0 x1 x5 x6 (ix2 r k)
      = Cert.Gru.gated (fun k => val_main_v1 (F := Ideal) x1 (ix2 r k)) (fun k => val_main_v0 (F := Ideal) x0 (ix2 r k))
          (fun k j => x5 (ix2 k j)) (fun k j => x6 (ix2 k j)) k := by
  rw [val_main_v21_apply, reset_gate, reset_pre]
  rfl

/-! ## The candidate -/

/-- Its pre-activation at `(r, q)`: the message row against `W`, the reset-gated state row against `U`. -/
theorem candidate_pre (r : Fin 65536) (q : Fin 256) :
    val_main_v23 (F := Ideal) x0 x1 x5 x6 x7 x8 (ix2 r q)
      = Cert.Gru.pre (fun k => val_main_v1 (F := Ideal) x1 (ix2 r k))
          (Cert.Gru.gated (fun k => val_main_v1 (F := Ideal) x1 (ix2 r k)) (fun k => val_main_v0 (F := Ideal) x0 (ix2 r k))
            (fun k j => x5 (ix2 k j)) (fun k j => x6 (ix2 k j)))
          (fun k j => x7 (ix2 k j)) (fun k j => x8 (ix2 k j)) q := by
  rw [val_main_v23_apply, val_main_v20_apply, val_main_v22_apply]
  simp only [lidx_v20, ridx_v20, lidx_v22, ridx_v22, gated_state]
  rfl

/-! ## The stage before the final reshape -/

/-- Entry `(r, q)` of the masked update is node `r`'s update at column `q`. -/
theorem stage_apply (r : Fin 65536) (q : Fin 256) :
    val_main_v32 (F := Ideal) x0 x1 x2 x3 x4 x5 x6 x7 x8 (ix2 r q)
      = Cert.Gru.row (Ideal.ofBits .f32 0x3F800000#32) (fun k => val_main_v0 (F := Ideal) x0 (ix2 r k))
          (fun k => val_main_v1 (F := Ideal) x1 (ix2 r k)) (val_main_v30 (F := Ideal) x2 (ix2 r (0 : Fin 1)))
          (fun k j => x3 (ix2 k j)) (fun k j => x4 (ix2 k j)) (fun k j => x5 (ix2 k j)) (fun k j => x6 (ix2 k j))
          (fun k j => x7 (ix2 k j)) (fun k j => x8 (ix2 k j)) q := by
  rw [val_main_v32_apply, val_main_v31_apply, idx_v31, val_main_v29_apply, val_main_v28_apply, val_main_v27_apply, val_main_v26_apply,
    val_main_v25_apply, val_main_cst_3_apply, val_main_v24_apply, candidate_pre, update_gate, update_pre]
  rfl

end Cert.ReferenceIdeal.Rows

end
-- ==== Proof.Bridge.lean ====
/-
  The kernel and the reference compute one function.

  Both programs flatten the 64 × 1024 nodes into 65536 rows, compute each node's gated-recurrent update and reshape
  back. The kernel does it tile by tile, with one fused logistic operation and narrowed matrix-unit operands; the
  reference does it with whole-array operations and the logistic spelled `1.0 / (1.0 + e⁻ˣ)`. Over the extended reals
  narrowing is the identity, a matrix product is the same finite sum however it is tiled, and the two spellings of the
  logistic are one function, so entry `(r, q)` of either flattened result is node `r`'s update at column `q`. No law
  of arithmetic beyond that is used: both sides apply the same operations in the same order, so the inputs' finiteness is
  never needed.
-/
import proofs.«156465_j28028956573797_1_alg».proof.Defs
import proofs.«156465_j28028956573797_1_alg».proof.Proof.Gen.Pre_finite_inputs
import proofs.«156465_j28028956573797_1_alg».proof.Proof.TileArray
import proofs.«156465_j28028956573797_1_alg».proof.Proof.RefRow

noncomputable section

namespace Cert.Bridge

open Idealize.ShloMosaic Idealize.ShloMosaic.TcCoe Idealize.SL.Sem Idealize.ShloMosaic.ValueIdx

/-- The kernel's whole output array is the reference's masked update before its final reshape, of the same arguments. -/
theorem whole_eq (m : (ℓ : Loc Cert.KernelIdeal.nD Cert.KernelIdeal.τ Cert.KernelIdeal.sig) → Buf (Elt Ideal) ℓ) (c : Dev Cert.KernelIdeal.nD) :
    Cert.KernelIdeal.Whole.whole m c
      = Cert.ReferenceIdeal.Read.val_main_v32 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  funext i
  obtain ⟨r, q, rfl⟩ : ∃ (r : Fin 65536) (q : Fin 256), i = ix2 r q := ⟨i 0, i 1, eq_ix2 i⟩
  refine Eq.trans ?_ (Cert.ReferenceIdeal.Rows.stage_apply _ _ _ _ _ _ _ _ _ r q).symm
  show Cert.KernelIdeal.Whole.nodeAt m c r q = _
  unfold Cert.KernelIdeal.Whole.nodeAt
  exact Cert.Gru.row_congr q
    (funext fun k => congrFun (Cert.KernelIdeal.Whole.state_entry m c) (ix2 r k))
    (funext fun k => congrFun (Cert.KernelIdeal.Whole.msg_entry m c) (ix2 r k))
    (congrFun (Cert.KernelIdeal.Whole.mask_entry m c) (ix2 r (0 : Fin 1)))
    (funext fun k => funext fun j => congrFun (Cert.KernelIdeal.Whole.wz_entry m c) (ix2 k j))
    (funext fun k => funext fun j => congrFun (Cert.KernelIdeal.Whole.uz_entry m c) (ix2 k j))
    (funext fun k => funext fun j => congrFun (Cert.KernelIdeal.Whole.wr_entry m c) (ix2 k j))
    (funext fun k => funext fun j => congrFun (Cert.KernelIdeal.Whole.ur_entry m c) (ix2 k j))
    (funext fun k => funext fun j => congrFun (Cert.KernelIdeal.Whole.w_entry m c) (ix2 k j))
    (funext fun k => funext fun j => congrFun (Cert.KernelIdeal.Whole.u_entry m c) (ix2 k j))

/-- From memories agreeing on the nine arguments both programs end with the same result: every node's update,
    reshaped to 64 × 1024 × 256. -/
theorem algebraic : Cert.algebraic_KernelIdeal_ReferenceIdeal := by
  intro m ρ m' ρ' _ hagree
  refine ⟨fun c => shapeCast Cert.KernelIdeal.S64x1024x256 (Cert.KernelIdeal.Whole.whole m c) Cert.KernelIdeal.Facts₀.shapeCasts_S65536x256_S64x1024x256,
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [e0, e1, e2, e3, e4, e5, e6, e7, e8]
  show _ = shapeCast Cert.KernelIdeal.S64x1024x256 (Cert.KernelIdeal.Whole.whole m c) Cert.KernelIdeal.Facts₀.shapeCasts_S65536x256_S64x1024x256
  rw [whole_eq m c]
  exact Cert.ReferenceIdeal.Read.val_main_v33_eq _ _ _ _ _ _ _ _ _

end Cert.Bridge

end
-- ==== Proof.lean ====
/-
  The certificate of the tiled gated-recurrent node update against its whole-array reference.

  The kernel updates 64 × 1024 graph nodes, each with a 256-entry state row, a 512-entry message row and a mask value:
  `z = σ(msg·Wz + h·Uz)`, `r = σ(msg·Wr + h·Ur)`, `h̃ = tanh(msg·W + (r ⊙ h)·U)`, `h' = ((1 − z) ⊙ h + z ⊙ h̃) · mask`. It flattens
  the nodes into 65536 rows and runs one launch over 32 tiles of 2048 rows, the weights narrowed for the matrix unit;
  the reference computes the same formula with whole-array operations.

  * The three frames: the two kernel programs' are the generated frame certificates; the reference has no launch, and
    its frame is its run with the result dropped.
  * The idealization rewrote nothing, so there is nothing to preserve.
  * Equal results over the extended reals: an output entry depends on its own node's rows only (`Proof/GruRow.lean`), so
    what a tile stores is that function of the tile's rows (`Proof/TileMatmul.lean`, `Proof/TilePayload.lean`), the 32
    tiles assemble into one whole-array function (`Proof/TileArray.lean`), the reference's last full-size stage is the
    same function (`Proof/RefRow.lean`), and both programs end with the same reshape (`Proof/Bridge.lean`).
-/
import proofs.«156465_j28028956573797_1_alg».proof.Defs
import proofs.«156465_j28028956573797_1_alg».proof.Proof.Gen.Kernel
import proofs.«156465_j28028956573797_1_alg».proof.Proof.Gen.Kernel.Skeleton
import proofs.«156465_j28028956573797_1_alg».proof.Proof.Gen.Kernel.Launch
import proofs.«156465_j28028956573797_1_alg».proof.Proof.Gen.Kernel.Points
import proofs.«156465_j28028956573797_1_alg».proof.Proof.Gen.Kernel.Frame
import proofs.«156465_j28028956573797_1_alg».proof.Proof.Gen.KernelIdeal
import proofs.«156465_j28028956573797_1_alg».proof.Proof.Gen.KernelIdeal.Skeleton
import proofs.«156465_j28028956573797_1_alg».proof.Proof.Gen.KernelIdeal.Launch
import proofs.«156465_j28028956573797_1_alg».proof.Proof.Gen.KernelIdeal.Points
import proofs.«156465_j28028956573797_1_alg».proof.Proof.Gen.KernelIdeal.Frame
import proofs.«156465_j28028956573797_1_alg».proof.Proof.Gen.ReferenceIdeal
import proofs.«156465_j28028956573797_1_alg».proof.Proof.Gen.Pre_finite_inputs
import proofs.«156465_j28028956573797_1_alg».proof.Proof.Gen.ReferenceIdeal.Run
import proofs.«156465_j28028956573797_1_alg».proof.Proof.Gen.ReferenceIdeal.Read
import proofs.«156465_j28028956573797_1_alg».proof.Proof.Bridge
import Idealize.ShloMosaic.Adequacy
import Idealize.ShloMosaic.Init

noncomputable section

namespace Cert.Proof

open Idealize.ShloMosaic Idealize.SL.Sem Cert.Kernel

/-- The word-level kernel program runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, Cert.Bridge.algebraic⟩

end Cert.Proof

end
